-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4x4096x256 .f32) (main_arg1 : FVec F S256x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S4x4096x256 : Shape := ⟨3, ![4, 4096, 256]⟩
abbrev S256x256 : Shape := ⟨2, ![256, 256]⟩
abbrev S_ : Shape := ⟨0, ![]⟩
abbrev S1x4096x256 : Shape := ⟨3, ![1, 4096, 256]⟩
abbrev S4096x256 : Shape := ⟨2, ![4096, 256]⟩

abbrev nBuf : Space → Nat
  | .hbm => 13
  | .vmem => 5
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .i32⟩
  | .hbm, ⟨3, _⟩ => ⟨S_, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S4x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S1x4096x256, .f32⟩
  | .local _ .vmem, ⟨4, _⟩ => ⟨S1x4096x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_c : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_cst : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256x256 : S_.BroadcastsInDim S256x256 (![] : Fin 0 → Fin S256x256.rank)
  transposes_S256x256_S256x256_1_0 : S256x256.Transposes [1, 0] S256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4096x256_S1x4096x256 : S4096x256.ShapeCasts S1x4096x256
  dot_S4096x256_S256x256_S4096x256_1_0_0_1_n_n_wf : DotDims.WF S4096x256 S256x256 S4096x256 [1] [0] [0] [1] [] []
  dot_S4096x256_S4096x256_S256x256_0_0_1_1_n_n_wf : DotDims.WF S4096x256 S4096x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S4x4096x256.size a
  hwx0_2 : ∀ i : grid0.Coords, EltTy.bits .f32 = 32 ∨ (Rect.block (s := S4x4096x256) S1x4096x256.size (cc0_transform_2 i) (hinb0_2 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S_ : Shape := ⟨0, ![]⟩
abbrev S4x4096x4096 : Shape := ⟨3, ![4, 4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .i32⟩
  | .hbm, ⟨3, _⟩ => ⟨S_, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S4x4096x256, .f32⟩
  | .hbm, ⟨12, _⟩ => ⟨S4x4096x4096, .f32⟩
  | .hbm, ⟨13, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_c : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_cst : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibDotTN.lean ====
/-
  A matrix product that contracts the FIRST axis of both operands, read at an entry.

  For dimension numbers that contract axis 0 of a `K × M` left operand with axis 0 of a `K × N` right operand and have
  no batch axes (the product `lᵀ · r`, a Gram matrix when `l = r`), the contraction index is one coordinate
  `k : Fin K`, the left operand is read at `(k, a)` and the right operand at `(k, b)`: the sum over the contraction
  index is `∑ k : Fin K`. At the ideal instance this reads a kernel's matrix product into a zero accumulator, and a
  host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDotTN

open Idealize.ShloMosaic Idealize.ShloMosaic.ValueIdx

/-- The sum over the contraction index of a `K × M` by `K × N` product contracted along both first axes, as a sum
    over `Fin K`. -/
theorem tn_sum {K M N : Nat} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    {α : Type} [AddCommMonoid α] (f : (⟨2, ![K, M]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 k a) (ix2 k b) := by
  obtain ⟨lc, rc, ln, rn, lb, rb, wf⟩ := d
  dsimp only at h1 h2 h3 h4 h5 h6
  subst h1 h2 h3 h4 h5 h6
  have hr : (DotDims.mk [0] [0] [1] [1] [] [] wf : DotDims ⟨2, ![K, M]⟩ ⟨2, ![K, N]⟩ ⟨2, ![M, N]⟩).contr.rank = 1 := rfl
  have hs : (DotDims.mk [0] [0] [1] [1] [] [] wf : DotDims ⟨2, ![K, M]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product `lᵀ · r` into the zero accumulator, at the ideal instance, at entry `(a, b)`. -/
theorem matmul_zero_apply {K M N : Nat} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = []) {φ₁ φ₂ : FTy}
    (prec : Option ContractPrecision) (l : FVec Ideal ⟨2, ![K, M]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 k a) * r (ix2 k b) := by
  show FloatOps.matmul d prec l r (constant ⟨2, ![M, N]⟩ .f32 0x00000000#32) (ix2 a b) = _
  rw [Ideal.matmul_constant_zero_apply]
  exact tn_sum d h1 h2 h3 h4 h5 h6 (fun i j => l i * r j) a b

/-- A host program's `dot_general` `lᵀ · r`, at the ideal instance, at entry `(a, b)`. -/
theorem dotGeneral_apply {K M N : Nat} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = []) {φ₁ φ₂ : FTy}
    (prec : Option ContractPrecision) (l : FVec Ideal ⟨2, ![K, M]⟩ φ₁) (r : FVec Ideal ⟨2, ![K, N]⟩ φ₂) (a : Fin M) (b : Fin N) :
    Host.dotGeneral d prec l r (ix2 a b) = ∑ k : Fin K, l (ix2 k a) * r (ix2 k b) := by
  show FloatOps.dotGeneral d prec .single l r (ix2 a b) = _
  rw [Ideal.dotGeneral_apply]
  exact tn_sum d h1 h2 h3 h4 h5 h6 (fun i j => l i * r j) a b

end Cert.LibDotTN

end
-- ==== Proof.KernelValue.lean ====
/-
  What the kernel leaves in its result array, at the ideal instance.

  The grid has one point per batch `b`. At point `b` the body loads the whole `[1, 4096, 256]` block `x[b]` and the
  whole `[256, 256]` second operand `wt`, and stores `(x[b] · wt) · (x[b]ᵀ · x[b])`: three matrix products into zero
  accumulators, the middle one contracting the row axis of both operands (a Gram matrix). Read at an entry each
  product is a finite sum, so entry `(n, c)` of what point `b` stores is

      ∑ s, (∑ t, x[b,n,t] * wt[t,s]) * (∑ r, x[b,r,s] * x[b,r,c]).

  Block `b` of the result array is exactly batch `b`, the four blocks tile the array, so the array after the run is that
  expression at every index `(b, n, c)`.
-/
import proofs.«127726_j50362786513377_1_alg».proof.Proof.Gen.KernelIdeal.Value
import proofs.«127726_j50362786513377_1_alg».proof.Proof.LibDot
import proofs.«127726_j50362786513377_1_alg».proof.Proof.LibDotTN
import Idealize.ShloMosaic.Lib.ValueLayout
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.GramValue

open Cert.KernelIdeal Cert.KernelIdeal.Gen Idealize.ShloMosaic Idealize.ShloMosaic.TcCoe Idealize.SL.Sem
open Idealize.ShloMosaic.ValueIdx
open Idealize.ShloMosaic.Pipeline (Dat)

/-! ## The kernel's function of the two arrays -/

/-- Entry `(b, n, c)` of `(x[b] · wt) · (x[b]ᵀ · x[b])`. -/
def entry (x : FVec Ideal S4x4096x256 .f32) (wt : FVec Ideal S256x256 .f32) (b : Fin 4) (n : Fin 4096) (c : Fin 256) : EReal :=
  ∑ s : Fin 256, (∑ t : Fin 256, x (ix3 b n t) * wt (ix2 t s)) * (∑ r : Fin 4096, x (ix3 b r s) * x (ix3 b r c))

/-- The whole result array. -/
def array (x : FVec Ideal S4x4096x256 .f32) (wt : FVec Ideal S256x256 .f32) : FVec Ideal S4x4096x256 .f32 :=
  fun i => entry x wt (i 0) (i 1) (i 2)

/-! ## What one grid point stores, entry by entry -/

/-- The stored value at `(u, n, c)` of a loaded block `x0` and second operand `x1`: the outer cast adds the unit axis,
    the last product is a sum over `s` of the first product's entry `(n, s)` times the Gram entry `(s, c)`, and the two
    inner casts drop the block's unit axis. -/
theorem stored_apply (x0 : Vec Ideal S1x4096x256 .f32) (x1 : Vec Ideal S256x256 .f32) (u : Fin 1) (n : Fin 4096) (c : Fin 256) :
    k0_pay1 (F := Ideal) x0 x1 (ix3 u n c)
      = ∑ s : Fin 256, (∑ t : Fin 256, x0 (ix3 (0 : Fin 1) n t) * x1 (ix2 t s))
          * (∑ r : Fin 4096, x0 (ix3 (0 : Fin 1) r s) * x0 (ix3 (0 : Fin 1) r c)) := by
  unfold k0_pay1
  refine (shapeCast_ab_1ab_apply _ _ u n c).trans ?_
  refine (Cert.LibDot.matmul_zero_apply _ rfl rfl rfl rfl rfl rfl none _ _ n c).trans ?_
  refine Finset.sum_congr rfl fun s _ => ?_
  congr 1
  · refine (Cert.LibDot.matmul_zero_apply _ rfl rfl rfl rfl rfl rfl none _ _ n s).trans ?_
    refine Finset.sum_congr rfl fun t _ => ?_
    rw [shapeCast_1ab_ab_apply, shapeCast_self]
  · refine (Cert.LibDotTN.matmul_zero_apply _ rfl rfl rfl rfl rfl rfl none _ _ s c).trans ?_
    refine Finset.sum_congr rfl fun r _ => ?_
    rw [shapeCast_1ab_ab_apply, shapeCast_1ab_ab_apply]

/-- So when the loaded block is batch `b` of `X` and the second operand is `WT`, the stored value at `y` is the
    array's entry `(b, y 1, y 2)`. -/
theorem stored_eq_entry (X : FVec Ideal S4x4096x256 .f32) (WT : FVec Ideal S256x256 .f32)
    (x0 : Vec Ideal S1x4096x256 .f32) (x1 : Vec Ideal S256x256 .f32) (b : Fin 4)
    (h0 : ∀ (n : Fin 4096) (c : Fin 256), x0 (ix3 (0 : Fin 1) n c) = X (ix3 b n c)) (h1 : x1 = WT)
    (u : Fin 1) (n : Fin 4096) (c : Fin 256) :
    k0_pay1 (F := Ideal) x0 x1 (ix3 u n c) = entry X WT b n c := by
  rw [stored_apply, h1]
  unfold entry
  simp only [h0]

/-! ## From the four blocks to the array -/

section Blocks

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the four points: at point `t` the first operand's window and the result's window sit
    at block `(t, 0, 0)`, the second operand's window at block `(0, 0)`. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The batch a grid point works on. -/
def batch (t : Fin cfg0.N) : Fin 4 := ⟨t.val, lt_of_lt_of_eq t.isLt N_0⟩

/-- The first operand's block at point `t` is batch `t` of its array. -/
theorem xblock_apply (c : Dev nD) (t : Fin cfg0.N) (n : Fin 4096) (k : Fin 256) :
    iblk m c 0 t (ix3 (0 : Fin 1) n k) = V m c main_arg0 (ix3 (batch t) n k) := by
  obtain ⟨e0, e1, e2, -⟩ := index_maps t
  show V m c main_arg0 (((cfg0.win 0).blk t).view.emb (ix3 (0 : Fin 1) n k)) = _
  congr 1
  funext a; apply Fin.ext
  match a with
  | ⟨0, _⟩ => show win0_0.index t (0 : Fin 3) * 1 + 1 * (0 : Fin 1).val = t.val; simp only [Fin.val_zero]; omega
  | ⟨1, _⟩ => show win0_0.index t (1 : Fin 3) * 4096 + 1 * n.val = n.val; omega
  | ⟨2, _⟩ => show win0_0.index t (2 : Fin 3) * 256 + 1 * k.val = k.val; omega

/-- The second operand's block at every point is its whole array. -/
theorem wblock_apply (c : Dev nD) (t : Fin cfg0.N) (y : S256x256.Idx) :
    iblk m c 1 t y = V m c main_v1 y := by
  obtain ⟨-, -, -, e3, e4, -⟩ := index_maps t
  show V m c main_v1 (((cfg0.win 1).blk t).view.emb y) = V m c main_v1 y
  congr 1
  funext a; apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- WHAT POINT `t` WRITES BACK is block `t` of the kernel's function of the two arrays as the region finds them. -/
theorem flushed_eq (c : Dev nD) (t : Fin cfg0.N) :
    (dats m 0 c).flushed 2 t
      = ((cfg0.win 2).blk t).view.read (Elt Ideal) (array (V m c main_arg0) (V m c main_v1)) := by
  rw [Value.flushed2]
  unfold out0_2
  rw [View.canon_unit_zero zeros3]
  simp only [View.ld_unit_zero (S := S1x4096x256) zeros3, View.ld_unit_zero (S := S256x256) zeros2]
  obtain ⟨-, -, -, -, -, e5, e6, e7⟩ := index_maps t
  funext j
  obtain ⟨u, n, k, rfl⟩ : ∃ (u : Fin 1) (n : Fin 4096) (k : Fin 256), j = ix3 u n k := ⟨j 0, j 1, j 2, eq_ix3 j⟩
  show k0_pay1 (F := Ideal) (iblk m c 0 t) (iblk m c 1 t) (ix3 u n k)
    = array (V m c main_arg0) (V m c main_v1) (((cfg0.win 2).blk t).view.emb (ix3 u n k))
  refine (stored_eq_entry (V m c main_arg0) (V m c main_v1) (iblk m c 0 t) (iblk m c 1 t) (batch t)
    (xblock_apply m c t) (funext (wblock_apply m c t)) u n k).trans ?_
  have hu : u.val = 0 := by omega
  have h0 : (((cfg0.win 2).blk t).view.emb (ix3 u n k)) 0 = batch t := Fin.ext (by
    show win0_2.index t (0 : Fin 3) * 1 + 1 * u.val = t.val; omega)
  have h1 : (((cfg0.win 2).blk t).view.emb (ix3 u n k)) 1 = n := Fin.ext (by
    show win0_2.index t (1 : Fin 3) * 4096 + 1 * n.val = n.val; omega)
  have h2 : (((cfg0.win 2).blk t).view.emb (ix3 u n k)) 2 = k := Fin.ext (by
    show win0_2.index t (2 : Fin 3) * 256 + 1 * k.val = k.val; omega)
  unfold array
  rw [h0, h1, h2]

/-- An index of the result array is in point `t`'s block iff each coordinate is in the block's range on its axis. -/
theorem mem_block (t : Fin cfg0.N) (i : S4x4096x256.Idx) :
    i ∈ ((cfg0.win 2).blk t).view.set ↔ ∀ a : Fin 3, win0_2.index t a * S1x4096x256.size a ≤ (i a).val
      ∧ (i a).val < win0_2.index t a * S1x4096x256.size a + S1x4096x256.size a := by
  show i ∈ ((View.whole main_v2).slice (win0_2.rect t)).set ↔ _
  rw [View.set_slice_whole, Rect.mem_set_unit]
  exact Iff.rfl

/-- Every index `(b, n, k)` of the result array is in the block of point `b`. -/
theorem covered (i : S4x4096x256.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 256 := (i 2).isLt
  obtain ⟨t, ht⟩ : ∃ t : Fin cfg0.N, t.val = (i 0).val := ⟨⟨(i 0).val, lt_of_lt_of_eq hi0 N_0.symm⟩, rfl⟩
  obtain ⟨-, -, -, -, -, e5, e6, e7⟩ := index_maps t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 256 ≤ (i 2).val ∧ (i 2).val < win0_2.index t (2 : Fin 3) * 256 + 256; omega

/-- THE RESULT ARRAY after the run is the kernel's function of the two arrays as the region finds them. -/
theorem final (c : Dev nD) :
    (dats m 0 c).arrAt 2 cfg0.N = array (V m c main_arg0) (V m c main_v1) :=
  (dats m 0 c).arrAt_eq_of_cover 2 (array (V m c main_arg0) (V m c main_v1)) (fun t _ => flushed_eq m c t) covered

end Blocks

/-! ## The second operand as the region finds it, and the run -/

section Run

variable (m : (ℓ : Loc nD τ sig) → Buf (Elt Ideal) ℓ) (ρ : Dev nD → PrngReg)

/-- The weight with everything on or below the diagonal replaced by zero: entry `(s, t)` is `w (s, t)` when `s < t`
    and `0` otherwise (the host's `select` on `row ≥ column`). -/
def masked (w : FVec Ideal S256x256 .f32) : FVec Ideal S256x256 .f32 :=
  select (cmpi .sge (addi (iotaInDim S256x256 32 0) (broadcastInDim S256x256 ![] bcast_S_S256x256 (constantI S_ 32 0#32))) (iotaInDim S256x256 32 1))
    (broadcastInDim S256x256 ![] bcast_S_S256x256 (constant (F := Ideal) S_ .f32 0x00000000#32)) w

/-- The host operations before the region leave in the second operand's array the transpose of the masked weight. -/
theorem V_main_v1 (c : Dev nD) :
    (V m c main_v1 : FVec Ideal S256x256 .f32)
      = transpose S256x256 [1, 0] (masked (m ((c : Thread nD τ).loc main_arg1))) transposes_S256x256_S256x256_1_0 := by
  dsimp only [V]
  simp only [hostOps0, hostOps0_1, List.flatten_cons, List.flatten_nil, List.append_nil, List.cons_append, List.nil_append]
  after_results
  rfl

/-- THE RUN: every weakly fair execution ends with the result array at the kernel's function of the first argument
    and the transposed masked second argument, both arguments unchanged. -/
theorem run : θ_run defs (onTc (τ := τ) (main (F := Ideal))) ⟨m, fun _ => 0, ρ⟩ fun r => ∀ c : Dev nD,
      r.2.mem ((c : Thread nD τ).loc main_v2)
        = array (m ((c : Thread nD τ).loc main_arg0))
            (transpose S256x256 [1, 0] (masked (m ((c : Thread nD τ).loc main_arg1))) transposes_S256x256_S256x256_1_0)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0, V_main_v1])), (h c).2⟩)
    (Value.run_blocks m ρ)

end Run

end Cert.KernelIdeal.GramValue

end
-- ==== Proof.ReferenceValue.lean ====
/-
  What the reference computes, at the ideal instance, at one entry.

  The reference masks the weight (`wm`), forms `x_ = x · wmᵀ` (contracting the last axis of both), the logits
  `x_ · xᵀ` per batch (again contracting the last axes), and the result `logits · x` per batch. Each product read
  at an entry is a finite sum, so entry `(b, n, c)` of the result is

      ∑ r, (∑ u, (∑ t, x[b,n,t] * wm[u,t]) * x[b,r,u]) * x[b,r,c].
-/
import proofs.«127726_j50362786513377_1_alg».proof.Proof.Gen.ReferenceIdeal.Read
import Idealize.ShloMosaic.Lib.ValueIdx

noncomputable section

open scoped BigOperators

namespace Cert.ReferenceIdeal.LogitsValue

open Cert.ReferenceIdeal Cert.ReferenceIdeal.Gen Cert.ReferenceIdeal.Read Idealize.ShloMosaic Idealize.ShloMosaic.ValueIdx

/-- Entry `(b, n, c)` of `((x[b] · wmᵀ) · x[b]ᵀ) · x[b]`. -/
def entry (x : FVec Ideal S4x4096x256 .f32) (wm : FVec Ideal S256x256 .f32) (b : Fin 4) (n : Fin 4096) (c : Fin 256) : EReal :=
  ∑ r : Fin 4096, (∑ u : Fin 256, (∑ t : Fin 256, x (ix3 b n t) * wm (ix2 u t)) * x (ix3 b r u)) * x (ix3 b r c)

/-! The composed index maps of the three products, by coordinates. -/

theorem right3 (b : Fin 4) (n : Fin 4096) (c : Fin 256) (r : Fin 4096) :
    ridx_main_v3 (ix3 b n c) r = ix3 b r c :=
  funext fun a => Fin.ext (by match a with | ⟨0, _⟩ => rfl | ⟨1, _⟩ => rfl | ⟨2, _⟩ => rfl)

theorem right2 (b : Fin 4) (n : Fin 4096) (c : Fin 256) (r : Fin 4096) (u : Fin 256) :
    ridx_main_v2 (lidx_main_v3 (ix3 b n c) r) u = ix3 b r u :=
  funext fun a => Fin.ext (by match a with | ⟨0, _⟩ => rfl | ⟨1, _⟩ => rfl | ⟨2, _⟩ => rfl)

theorem left1 (b : Fin 4) (n : Fin 4096) (c : Fin 256) (r : Fin 4096) (u t : Fin 256) :
    lidx_main_v1 (lidx_main_v2 (lidx_main_v3 (ix3 b n c) r) u) t = ix3 b n t :=
  funext fun a => Fin.ext (by match a with | ⟨0, _⟩ => rfl | ⟨1, _⟩ => rfl | ⟨2, _⟩ => rfl)

theorem right1 (b : Fin 4) (n : Fin 4096) (c : Fin 256) (r : Fin 4096) (u t : Fin 256) :
    ridx_main_v1 (lidx_main_v2 (lidx_main_v3 (ix3 b n c) r) u) t = ix2 u t :=
  funext fun a => Fin.ext (by match a with | ⟨0, _⟩ => rfl | ⟨1, _⟩ => rfl)

/-- The reference's result at `(b, n, c)`: the three products read as sums, outermost first. -/
theorem result_apply (x0 : (⟨S4x4096x256, .f32⟩ : BufTy).Contents (Elt Ideal)) (x1 : (⟨S256x256, .f32⟩ : BufTy).Contents (Elt Ideal))
    (b : Fin 4) (n : Fin 4096) (c : Fin 256) :
    val_main_v3 (F := Ideal) x0 x1 (ix3 b n c) = entry x0 (val_main_v0 (F := Ideal) x1) b n c := by
  rw [val_main_v3_apply]
  unfold entry
  refine Finset.sum_congr rfl fun r _ => ?_
  rw [val_main_v2_apply, right3]
  congr 1
  refine Finset.sum_congr rfl fun u _ => ?_
  rw [val_main_v1_apply, right2]
  congr 1
  refine Finset.sum_congr rfl fun t _ => ?_
  rw [left1, right1]

end Cert.ReferenceIdeal.LogitsValue

end
-- ==== Proof.TripleProduct.lean ====
/-
  Associativity of a triple matrix product, entry by entry, on the extended reals.

  Fix a row `A` (one row of a first product), a matrix `y` and a column `z` of it. Contracting `A` with the Gram
  column `∑ m, y m s * z m` over `s`, or first contracting `A` with each row `y m` and then summing against `z` over
  `m`, gives the same number when every entry is a real number: both are the double sum of `A s * y m s * z m`.
  On the extended reals a product does not move across a sum in general (an infinity spoils it), so the statement
  asks that every entry be the reading of a real number; then each side is the reading of one real expression and the
  two real expressions agree by distributivity and an exchange of the two finite sums.
-/
import Mathlib.Data.EReal.Operations
import Mathlib.Algebra.BigOperators.Group.Finset.Basic
import Mathlib.Algebra.BigOperators.Group.Finset.Sigma
import Mathlib.Algebra.BigOperators.Ring.Finset

noncomputable section

open scoped BigOperators

namespace Cert.TripleProduct

/-- An extended real that is the reading of a real number. -/
def IsReal (x : EReal) : Prop := ∃ r : ℝ, x = (r : EReal)

theorem isReal_zero : IsReal 0 := ⟨0, EReal.coe_zero.symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of readings of reals is the reading of the real sum: the empty sum is zero on both sides, and one
    more term is the fact that the reading respects a sum of two reals. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, EReal.coe_add, ih]

/-- A finite sum of real entries is real. -/
theorem isReal_sum {ι : Type*} [Fintype ι] (f : ι → EReal) (hf : ∀ i, IsReal (f i)) : IsReal (∑ i, f i) := by
  choose r hr using hf
  exact ⟨∑ i, r i, by simp_rw [hr]; exact coe_sum _ _⟩

/-- THE LAW. With `A`, `y`, `z` real: `∑ s, A s * (∑ m, y m s * z m) = ∑ m, (∑ s, A s * y m s) * z m`. -/
theorem assoc {N S : Type*} [Fintype N] [Fintype S] (A : S → EReal) (y : N → S → EReal) (z : N → EReal)
    (hA : ∀ s, IsReal (A s)) (hy : ∀ m s, IsReal (y m s)) (hz : ∀ m, IsReal (z m)) :
    ∑ s, A s * (∑ m, y m s * z m) = ∑ m, (∑ s, A s * y m s) * z m := by
  choose a ha using hA
  choose yr hyr using hy
  choose zr hzr using hz
  -- every entry is the reading of a real; push the reading out of products and sums
  simp_rw [ha, hyr, hzr, ← EReal.coe_mul, coe_sum, ← EReal.coe_mul, coe_sum]
  congr 1
  -- in the reals: distribute on both sides and exchange the two sums
  simp_rw [Finset.mul_sum, Finset.sum_mul]
  rw [Finset.sum_comm]
  refine Finset.sum_congr rfl fun m _ => Finset.sum_congr rfl fun s _ => ?_
  ring

end Cert.TripleProduct

end
-- ==== Proof.FiniteInputs.lean ====
/-
  From the precondition to real entries.

  The precondition says of each float input `a` that `|a| < +∞` at every index, the two `all`s joined by `and`. An
  extended real whose absolute value `max a (-a)` is below `+∞` is neither infinity (each has absolute value `+∞`),
  so it is the reading of a real number. Hence under the precondition every entry of both inputs is real.
-/
import proofs.«127726_j50362786513377_1_alg».proof.Pre_finite_inputs
import proofs.«127726_j50362786513377_1_alg».proof.Proof.TripleProduct
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Cert.TripleProduct

/-- The pattern `0x7F800000` is `+∞`. -/
theorem ofBits_inf : Ideal.ofBits .f32 0x7F800000#32 = (⊤ : EReal) := by
  simp [Ideal.ofBits, Ideal.ieee]

/-- An extended real with `|v| < +∞` (the printed comparison came out 1) is real. -/
theorem isReal_of_abs_lt (v : EReal)
    (e : FloatOps.cmpf (F := Ideal) (φ := .f32) .olt (FloatOps.hostAbsf (F := Ideal) (φ := .f32) v)
      (FloatOps.ofBits (F := Ideal) .f32 0x7F800000#32) = 1#1) : IsReal v := by
  rw [Ideal.hostAbsf_def, Ideal.cmpf_def, Ideal.absf_def] at e
  have hb : FloatOps.ofBits (F := Ideal) .f32 0x7F800000#32 = (⊤ : EReal) := ofBits_inf
  rw [hb] at e
  unfold Ideal.cmp at e
  induction v using EReal.rec with
  | bot => simp at e
  | coe r => exact ⟨r, rfl⟩
  | top => simp at e

instance : Subsingleton Cert.Pre_finite_inputs.S_.Idx := ⟨fun a b => funext fun d => d.elim0⟩

variable [Cert.Pre_finite_inputs.Facts]

/-- Under the precondition every entry of both inputs is the reading of a real number. -/
theorem real_of_pre (x : FVec Ideal Cert.Pre_finite_inputs.S4x4096x256 .f32) (w : FVec Ideal Cert.Pre_finite_inputs.S256x256 .f32)
    (h : Cert.Pre_finite_inputs.fn (F := Ideal) x w = fun _ => 1#1) :
    (∀ i, IsReal (x i)) ∧ (∀ j, IsReal (w j)) := by
  have h0 := congrFun h ValueIdx.ix0
  dsimp only [Cert.Pre_finite_inputs.fn] at h0
  obtain ⟨ha, hb⟩ := IntOp.andi_eq_one.1 h0
  refine ⟨fun i => ?_, fun j => ?_⟩
  · have e := Host.reduce_andi_all _ _ _ _ _ ha i
    exact isReal_of_abs_lt _ e
  · have e := Host.reduce_andi_all _ _ _ _ _ hb j
    exact isReal_of_abs_lt _ e

end Cert.FiniteInputs

end
-- ==== Proof.Bridge.lean ====
/-
  The kernel's result and the reference's result are one array, under the precondition.

  Both programs mask the weight with the same host operations, so the masked weight `wm` is one function of the second
  argument; the kernel is handed its transpose. At entry `(b, n, c)` the kernel computes

      ∑ s, (∑ t, x[b,n,t] * wm[s,t]) * (∑ r, x[b,r,s] * x[b,r,c])

  and the reference

      ∑ r, (∑ s, (∑ t, x[b,n,t] * wm[s,t]) * x[b,r,s]) * x[b,r,c].

  With `A s = ∑ t, x[b,n,t] * wm[s,t]`, `y r s = x[b,r,s]`, `z r = x[b,r,c]` these are the two sides of the
  associativity law for real entries. The precondition makes every entry of `x` and of the weight real; a masked entry
  is a weight entry or zero, and `A s` is a finite sum of products of real entries.
-/
import proofs.«127726_j50362786513377_1_alg».proof.Proof.KernelValue
import proofs.«127726_j50362786513377_1_alg».proof.Proof.ReferenceValue
import proofs.«127726_j50362786513377_1_alg».proof.Proof.TripleProduct
import proofs.«127726_j50362786513377_1_alg».proof.Proof.FiniteInputs
import Idealize.ShloMosaic.Lib.ValueLayout
import Idealize.ShloMosaic.Lib.ValueIdx
import Idealize.ShloMosaic.PureOps.Ideal.Laws

noncomputable section

open scoped BigOperators

namespace Cert.Bridge

open Idealize.ShloMosaic Idealize.ShloMosaic.ValueIdx Cert.TripleProduct

/-- The two programs mask the weight by the same operations. -/
theorem masked_eq (w : FVec Ideal Cert.KernelIdeal.S256x256 .f32) :
    Cert.KernelIdeal.GramValue.masked w = Cert.ReferenceIdeal.Read.val_main_v0 (F := Ideal) w := rfl

/-- A masked entry is zero or a weight entry: real when the weight's entries are. -/
theorem masked_isReal (w : FVec Ideal Cert.ReferenceIdeal.S256x256 .f32) (hw : ∀ j, IsReal (w j)) (j : Cert.ReferenceIdeal.S256x256.Idx) :
    IsReal (Cert.ReferenceIdeal.Read.val_main_v0 (F := Ideal) w j) := by
  rw [Cert.ReferenceIdeal.Read.val_main_v0_apply]
  unfold Scalar.select
  split
  · rw [Cert.ReferenceIdeal.Read.val_main_call0_v5_apply, Cert.ReferenceIdeal.Read.val_main_call0_cst_apply]
    have hz : (FloatOps.ofBits (F := Ideal) .f32 0x00000000#32 : EReal) = 0 := Ideal.ofBits_zero_f32
    rw [hz]
    exact isReal_zero
  · exact hw j

/-- ENTRY BY ENTRY: the kernel's entry over the transposed masked weight is the reference's entry over the masked
    weight, when every entry of `x` and `w` is real. -/
theorem entry_eq (x : FVec Ideal Cert.KernelIdeal.S4x4096x256 .f32) (w : FVec Ideal Cert.KernelIdeal.S256x256 .f32)
    (hx : ∀ i, IsReal (x i)) (hw : ∀ j, IsReal (w j)) (b : Fin 4) (n : Fin 4096) (c : Fin 256) :
    Cert.KernelIdeal.GramValue.entry x
        (transpose Cert.KernelIdeal.S256x256 [1, 0] (Cert.KernelIdeal.GramValue.masked w) Cert.KernelIdeal.Gen.transposes_S256x256_S256x256_1_0) b n c
      = Cert.ReferenceIdeal.LogitsValue.entry x (Cert.ReferenceIdeal.Read.val_main_v0 (F := Ideal) w) b n c := by
  unfold Cert.KernelIdeal.GramValue.entry Cert.ReferenceIdeal.LogitsValue.entry
  -- the kernel's second operand at (t, s) is the masked weight at (s, t)
  have ht : ∀ t s : Fin 256,
      transpose Cert.KernelIdeal.S256x256 [1, 0] (Cert.ReferenceIdeal.Read.val_main_v0 (F := Ideal) w)
        Cert.KernelIdeal.Gen.transposes_S256x256_S256x256_1_0 (ix2 t s)
        = Cert.ReferenceIdeal.Read.val_main_v0 (F := Ideal) w (ix2 s t) :=
    fun t s => transpose_ix2_apply _ _ t s
  simp only [masked_eq, ht]
  exact assoc (fun s => ∑ t : Fin 256, x (ix3 b n t) * Cert.ReferenceIdeal.Read.val_main_v0 (F := Ideal) w (ix2 s t))
    (fun r s => x (ix3 b r s)) (fun r => x (ix3 b r c))
    (fun s => isReal_sum _ fun t => (hx _).mul (masked_isReal w hw _)) (fun r s => hx _) (fun r => hx _)

/-- THE ARRAYS: the reference's result term is the kernel's function of the arguments. -/
theorem result_eq (x : FVec Ideal Cert.KernelIdeal.S4x4096x256 .f32) (w : FVec Ideal Cert.KernelIdeal.S256x256 .f32)
    (hx : ∀ i, IsReal (x i)) (hw : ∀ j, IsReal (w j)) :
    Cert.ReferenceIdeal.Read.val_main_v3 (F := Ideal) x w
      = Cert.KernelIdeal.GramValue.array x
          (transpose Cert.KernelIdeal.S256x256 [1, 0] (Cert.KernelIdeal.GramValue.masked w) Cert.KernelIdeal.Gen.transposes_S256x256_S256x256_1_0) := by
  funext i
  obtain ⟨b, n, c, rfl⟩ : ∃ (b : Fin 4) (n : Fin 4096) (c : Fin 256), i = ix3 b n c := ⟨i 0, i 1, i 2, eq_ix3 i⟩
  rw [Cert.ReferenceIdeal.LogitsValue.result_apply]
  exact (entry_eq x w hx hw b n c).symm

end Cert.Bridge

end
-- ==== Proof.lean ====
/- Equivalence over the extended reals of a per-batch triple matrix product computed in two groupings.

   With `x` of shape [4, 4096, 256] and the weight `W` of shape [256, 256], let `wm` be `W` with every entry on or below
   the diagonal replaced by zero. The reference computes, per batch `b`, `((x[b] · wmᵀ) · x[b]ᵀ) · x[b]`; the kernel
   computes `(x[b] · wmᵀ) · (x[b]ᵀ · x[b])`, one batch per grid point, from the transpose of `wm` formed on the host.
   Entry by entry the two are the two sides of the associativity law of the matrix product, which on the extended reals
   holds for real entries (a product does not move across a sum when an infinity is involved). The precondition makes
   every input entry finite, hence real; masked entries are input entries or zero.

   The frames of the two kernel programs are the generated ones; the reference's frame is its generated run with the
   result dropped; there is no idealization rewrite to preserve. The value claim sets the kernel's run (its result array
   read block by block and assembled) beside the reference's run (its three products read as sums) and joins them by the
   law. -/
import proofs.«127726_j50362786513377_1_alg».proof.Defs
import proofs.«127726_j50362786513377_1_alg».proof.Proof.Gen.Kernel
import proofs.«127726_j50362786513377_1_alg».proof.Proof.Gen.Kernel.Skeleton
import proofs.«127726_j50362786513377_1_alg».proof.Proof.Gen.Kernel.Launch
import proofs.«127726_j50362786513377_1_alg».proof.Proof.Gen.Kernel.Points
import proofs.«127726_j50362786513377_1_alg».proof.Proof.Gen.Kernel.Frame
import proofs.«127726_j50362786513377_1_alg».proof.Proof.Gen.KernelIdeal
import proofs.«127726_j50362786513377_1_alg».proof.Proof.Gen.KernelIdeal.Skeleton
import proofs.«127726_j50362786513377_1_alg».proof.Proof.Gen.KernelIdeal.Launch
import proofs.«127726_j50362786513377_1_alg».proof.Proof.Gen.KernelIdeal.Points
import proofs.«127726_j50362786513377_1_alg».proof.Proof.Gen.KernelIdeal.Frame
import proofs.«127726_j50362786513377_1_alg».proof.Proof.Gen.ReferenceIdeal
import proofs.«127726_j50362786513377_1_alg».proof.Proof.Gen.Pre_finite_inputs
import proofs.«127726_j50362786513377_1_alg».proof.Proof.Gen.KernelIdeal.Value
import proofs.«127726_j50362786513377_1_alg».proof.Proof.Gen.ReferenceIdeal.Run
import proofs.«127726_j50362786513377_1_alg».proof.Proof.Gen.ReferenceIdeal.Read
import proofs.«127726_j50362786513377_1_alg».proof.Proof.Bridge
import Idealize.ShloMosaic.Adequacy
import Idealize.ShloMosaic.Init

noncomputable section

namespace Cert.Proof

open Idealize.ShloMosaic Idealize.SL.Sem

/-- The kernel as printed runs, its arguments unchanged. -/
theorem frame_kernel : Cert.frame_Kernel := fun m ρ _ => Cert.Kernel.Gen.frame m ρ

/-- The idealized kernel runs, its arguments unchanged. -/
theorem frame_kernelIdeal : Cert.frame_KernelIdeal := fun m ρ _ => Cert.KernelIdeal.Gen.frame m ρ

/-- The idealized reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories agreeing on the arguments both programs end with the same result array: the kernel's is its
    function of the arguments, and the reference's term equals that function because every argument entry is real. -/
theorem algebraic : Cert.algebraic_KernelIdeal_ReferenceIdeal := by
  intro m ρ m' ρ' hpre hagree
  refine ⟨_, Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.FiniteInputs.real_of_pre _ _ (hpre c)
  rw [(hagree c).1, (hagree c).2]
  refine (Cert.ReferenceIdeal.Read.val_main_v3_eq _ _).trans ?_
  exact Cert.Bridge.result_eq _ _ hx hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
